-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S2048x784 : Shape := ⟨2, ![2048, 784]⟩
abbrev S2048 : Shape := ⟨1, ![2048]⟩
abbrev S10x2048 : Shape := ⟨2, ![10, 2048]⟩
abbrev S10 : Shape := ⟨1, ![10]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S2048x784 : S_.BroadcastsInDim S2048x784 (![] : Fin 0 → Fin S2048x784.rank)
  reducesTo_S2048x784_S_d0_1 : S2048x784.ReducesTo [0, 1] S_
  bcast_S_S2048 : S_.BroadcastsInDim S2048 (![] : Fin 0 → Fin S2048.rank)
  reducesTo_S2048_S_d0 : S2048.ReducesTo [0] S_
  bcast_S_S10x2048 : S_.BroadcastsInDim S10x2048 (![] : Fin 0 → Fin S10x2048.rank)
  reducesTo_S10x2048_S_d0_1 : S10x2048.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S10x2048 1) : IVec S_ 1 :=
  let main_c_5 : IVec S_ 1 := constantI S_ 1 1#1
  let main_v17 : IVec S_ 1 := (fun x v => Host.reduce IntOp.andi x v reducesTo_S10x2048_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S16384x784 .f32) (main_arg1 : FVec F S2048x784 .f32) (main_arg2 : FVec F S2048 .f32) (main_arg3 : FVec F S10x2048 .f32) (main_arg4 : FVec F S10 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S2048x784 .f32 := Host.absf main_arg1
  let main_cst_0 : FVec F S_ .f32 := constant S_ .f32 0x7F800000#32
  let main_v5 : FVec F S2048x784 .f32 := broadcastInDim S2048x784 ![] bcast_S_S2048x784 main_cst_0
  let main_v6 : IVec S2048x784 1 := cmpf .olt main_v4 main_v5
  let main_c_1 : IVec S_ 1 := constantI S_ 1 1#1
  let main_v7 : IVec S_ 1 := (fun x v => Host.reduce IntOp.andi x v reducesTo_S2048x784_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S10x2048 .f32 := Host.absf main_arg3
  let main_cst_4 : FVec F S_ .f32 := constant S_ .f32 0x7F800000#32
  let main_v15 : FVec F S10x2048 .f32 := broadcastInDim S10x2048 ![] bcast_S_S10x2048 main_cst_4
  let main_v16 : IVec S10x2048 1 := cmpf .olt main_v14 main_v15
  fn_part1 (F := F) main_arg4 main_v13 main_v16
-- ==== Kernel.lean ====
abbrev S16384x784 : Shape := ⟨2, ![16384, 784]⟩
abbrev S2048x784 : Shape := ⟨2, ![2048, 784]⟩
abbrev S2048 : Shape := ⟨1, ![2048]⟩
abbrev S10x2048 : Shape := ⟨2, ![10, 2048]⟩
abbrev S10 : Shape := ⟨1, ![10]⟩
abbrev S_ : Shape := ⟨0, ![]⟩
abbrev S1x2048 : Shape := ⟨2, ![1, 2048]⟩
abbrev S784x2048 : Shape := ⟨2, ![784, 2048]⟩
abbrev S2048x10 : Shape := ⟨2, ![2048, 10]⟩
abbrev S1x10 : Shape := ⟨2, ![1, 10]⟩
abbrev S16384x10 : Shape := ⟨2, ![16384, 10]⟩
abbrev S512x784 : Shape := ⟨2, ![512, 784]⟩
abbrev S512x10 : Shape := ⟨2, ![512, 10]⟩
abbrev S512 : Shape := ⟨1, ![512]⟩
abbrev S512x1 : Shape := ⟨2, ![512, 1]⟩
abbrev S512x2048 : Shape := ⟨2, ![512, 2048]⟩

abbrev nBuf : Space → Nat
  | .hbm => 20
  | .vmem => 9
  | .smem => 0
  | _ => 0

abbrev bufTy : (tb : Table) → Fin (tcTables nBuf tb) → BufTy
  | .hbm, ⟨0, _⟩ => ⟨S16384x784, .f32⟩
  | .hbm, ⟨1, _⟩ => ⟨S2048x784, .f32⟩
  | .hbm, ⟨2, _⟩ => ⟨S2048, .f32⟩
  | .hbm, ⟨3, _⟩ => ⟨S10x2048, .f32⟩
  | .hbm, ⟨4, _⟩ => ⟨S10, .f32⟩
  | .hbm, ⟨5, _⟩ => ⟨S2048x784, .f32⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S1x2048, .f32⟩
  | .hbm, ⟨14, _⟩ => ⟨S784x2048, .f32⟩
  | .hbm, ⟨15, _⟩ => ⟨S784x2048, .bf16⟩
  | .hbm, ⟨16, _⟩ => ⟨S2048x10, .f32⟩
  | .hbm, ⟨17, _⟩ => ⟨S2048x10, .bf16⟩
  | .hbm, ⟨18, _⟩ => ⟨S1x10, .f32⟩
  | .hbm, ⟨19, _⟩ => ⟨S16384x10, .f32⟩
  | .local _ .vmem, ⟨0, _⟩ => ⟨S512x784, .f32⟩
  | .local _ .vmem, ⟨1, _⟩ => ⟨S512x784, .f32⟩
  | .local _ .vmem, ⟨2, _⟩ => ⟨S784x2048, .bf16⟩
  | .local _ .vmem, ⟨3, _⟩ => ⟨S1x2048, .f32⟩
  | .local _ .vmem, ⟨4, _⟩ => ⟨S1x2048, .f32⟩
  | .local _ .vmem, ⟨5, _⟩ => ⟨S2048x10, .bf16⟩
  | .local _ .vmem, ⟨6, _⟩ => ⟨S1x10, .f32⟩
  | .local _ .vmem, ⟨7, _⟩ => ⟨S512x10, .f32⟩
  | .local _ .vmem, ⟨8, _⟩ => ⟨S512x10, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x10 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S2048x784_S2048_d1 : S2048x784.ReducesTo [1] S2048
  h_S_ : 0 < S_.numel
  bcast_S2048_S1x2048_1 : S2048.BroadcastsInDim S1x2048 (![1] : Fin 1 → Fin S1x2048.rank)
  bcast_S_S2048 : S_.BroadcastsInDim S2048 (![] : Fin 0 → Fin S2048.rank)
  transposes_S2048x784_S784x2048_1_0 : S2048x784.Transposes [1, 0] S784x2048
  bitsLt_bf16_f32 : FTy.bits .bf16 < FTy.bits .f32
  transposes_S10x2048_S2048x10_1_0 : S10x2048.Transposes [1, 0] S2048x10
  bcast_S10_S1x10_1 : S10.BroadcastsInDim S1x10 (![1] : Fin 1 → Fin S1x10.rank)
  inb_S512x784_S512x784_0_0 : ∀ a, (![0, 0] : Fin 2 → Nat) a + S512x784.size a ≤ S512x784.size a
  h_S512x784 : 0 < S512x784.numel
  reduces_S512x784_S512 : S512x784.Reduces [1] S512
  shapeCasts_S512_S512x1 : S512.ShapeCasts S512x1
  inb_S784x2048_S784x2048_0_0 : ∀ a, (![0, 0] : Fin 2 → Nat) a + S784x2048.size a ≤ S784x2048.size a
  h_S784x2048 : 0 < S784x2048.numel
  shapeCasts_S784x2048_S784x2048 : S784x2048.ShapeCasts S784x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S2048x10_S2048x10_0_0 : ∀ a, (![0, 0] : Fin 2 → Nat) a + S2048x10.size a ≤ S2048x10.size a
  h_S2048x10 : 0 < S2048x10.numel
  shapeCasts_S2048x10_S2048x10 : S2048x10.ShapeCasts S2048x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  dot_S512x784_S784x2048_S512x2048_1_0_0_1_n_n_wf : DotDims.WF S512x784 S784x2048 S512x2048 [1] [0] [0] [1] [] []
  dot_S512x2048_S2048x10_S512x10_1_0_0_1_n_n_wf : DotDims.WF S512x2048 S2048x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S16384x784.size a
  hwx0_0 : ∀ i : grid0.Coords, EltTy.bits .f32 = 32 ∨ (Rect.block (s := S16384x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x2048.size a ≤ S784x2048.size a
  hwx0_1 : ∀ i : grid0.Coords, EltTy.bits .bf16 = 32 ∨ (Rect.block (s := S784x2048) S784x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x10.size a ≤ S2048x10.size a
  hwx0_4 : ∀ i : grid0.Coords, EltTy.bits .bf16 = 32 ∨ (Rect.block (s := S2048x10) S2048x10.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x10.size a ≤ S16384x10.size a
  hwx0_6 : ∀ i : grid0.Coords, EltTy.bits .f32 = 32 ∨ (Rect.block (s := S16384x10) S512x10.size (cc0_transform_6 i) (hinb0_6 i)).WholeWords (EltTy.packing .f32)

variable [Facts₀]

def dot_S512x784_S784x2048_S512x2048_1_0_0_1_n_n : DotDims S512x784 S784x2048 S512x2048 where
  lhsContracting := [1]
  rhsContracting := [0]
  lhsNonContracting := [0]
  rhsNonContracting := [1]
  lhsBatch := []
  rhsBatch := []
  wf := dot_S512x784_S784x2048_S512x2048_1_0_0_1_n_n_wf
def dot_S512x2048_S2048x10_S512x10_1_0_0_1_n_n : DotDims S512x2048 S2048x10 S512x10 where
  lhsContracting := [1]
  rhsContracting := [0]
  lhsNonContracting := [0]
  rhsNonContracting := [1]
  lhsBatch := []
  rhsBatch := []
  wf := dot_S512x2048_S2048x10_S512x10_1_0_0_1_n_n_wf

abbrev win0_0 : Pipeline.Window sig grid0 :=
  Pipeline.Window.ofSpec (Memref.whole main_arg0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S784x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2048x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S512x10.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x784 : Shape := ⟨2, ![16384, 784]⟩
abbrev S2048x784 : Shape := ⟨2, ![2048, 784]⟩
abbrev S2048 : Shape := ⟨1, ![2048]⟩
abbrev S10x2048 : Shape := ⟨2, ![10, 2048]⟩
abbrev S10 : Shape := ⟨1, ![10]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x2048 : Shape := ⟨2, ![16384, 2048]⟩
abbrev S784x2048 : Shape := ⟨2, ![784, 2048]⟩
abbrev S2048x10 : Shape := ⟨2, ![2048, 10]⟩
abbrev S16384x10 : Shape := ⟨2, ![16384, 10]⟩
abbrev S1x10 : Shape := ⟨2, ![1, 10]⟩

abbrev nBuf : Space → Nat
  | .hbm => 38
  | .vmem => 0
  | .smem => 0
  | _ => 0

abbrev bufTy : (tb : Table) → Fin (tcTables nBuf tb) → BufTy
  | .hbm, ⟨0, _⟩ => ⟨S16384x784, .f32⟩
  | .hbm, ⟨1, _⟩ => ⟨S2048x784, .f32⟩
  | .hbm, ⟨2, _⟩ => ⟨S2048, .f32⟩
  | .hbm, ⟨3, _⟩ => ⟨S10x2048, .f32⟩
  | .hbm, ⟨4, _⟩ => ⟨S10, .f32⟩
  | .hbm, ⟨5, _⟩ => ⟨S16384x784, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S2048x784, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S784x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S2048x10, .f32⟩
  | .hbm, ⟨34, _⟩ => ⟨S16384x10, .f32⟩
  | .hbm, ⟨35, _⟩ => ⟨S1x10, .f32⟩
  | .hbm, ⟨36, _⟩ => ⟨S16384x10, .f32⟩
  | .hbm, ⟨37, _⟩ => ⟨S16384x10, .f32⟩
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S16384x784_S16384_d1 : S16384x784.ReducesTo [1] S16384
  h_S_ : 0 < S_.numel
  bcast_S16384_S16384x1_0 : S16384.BroadcastsInDim S16384x1 (![0] : Fin 1 → Fin S16384x1.rank)
  reducesTo_S2048x784_S2048_d1 : S2048x784.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  transposes_S2048x784_S784x2048_1_0 : S2048x784.Transposes [1, 0] S784x2048
  bcast_S_S16384x2048 : S_.BroadcastsInDim S16384x2048 (![] : Fin 0 → Fin S16384x2048.rank)
  transposes_S10x2048_S2048x10_1_0 : S10x2048.Transposes [1, 0] S2048x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  dot_S16384x784_S784x2048_S16384x2048_1_0_0_1_n_n_wf : DotDims.WF S16384x784 S784x2048 S16384x2048 [1] [0] [0] [1] [] []
  dot_S16384x2048_S2048x10_S16384x10_1_0_0_1_n_n_wf : DotDims.WF S16384x2048 S2048x10 S16384x10 [1] [0] [0] [1] [] []

variable [Facts₀]

def dot_S16384x784_S784x2048_S16384x2048_1_0_0_1_n_n : DotDims S16384x784 S784x2048 S16384x2048 where
  lhsContracting := [1]
  rhsContracting := [0]
  lhsNonContracting := [0]
  rhsNonContracting := [1]
  lhsBatch := []
  rhsBatch := []
  wf := dot_S16384x784_S784x2048_S16384x2048_1_0_0_1_n_n_wf
def dot_S16384x2048_S2048x10_S16384x10_1_0_0_1_n_n : DotDims S16384x2048 S2048x10 S16384x10 where
  lhsContracting := [1]
  rhsContracting := [0]
  lhsNonContracting := [0]
  rhsNonContracting := [1]
  lhsBatch := []
  rhsBatch := []
  wf := dot_S16384x2048_S2048x10_S16384x10_1_0_0_1_n_n_wf

class Facts : Prop extends Facts₀ where

variable [Facts]
-- ==== Proof.RbfLaw.lean ====
/-
  The mathematics of the radial-basis classifier, with no program in sight.

  For a batch x : [16384, 784], centres ce : [2048, 784], log-widths ls : [2048], a read-out matrix
  W : [10, 2048] and a bias b : [10], over the extended reals:

    sqDist r c  = max ((|x_r|^2 + |ce_c|^2) - 2 * <x_r, ce_c>) 0
    out r o     = (sum over c of phi r c * W o c) + b o

  where the basis value phi r c is spelt in two ways:

    scaled :   exp (-(sqDist r c * exp (-2 * ls c)))
    quotient:  exp (-((sqrt (sqDist r c) / exp (ls c)) * (sqrt (sqDist r c) / exp (ls c))))

  On REAL data the two agree: sqDist r c is then a real d >= 0 and ls c a real l, sqrt d * sqrt d = d, and
  (1 / e^l) * (1 / e^l) = e^(-2l). At an infinite entry they need not agree (a quotient by exp of +infinity is 0,
  while the scaled form multiplies by exp of -infinity), which is why the law asks for real data.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Rbf

/-! ## Two float patterns as reals -/

/-- The pattern of 2.0 denotes the real 2. -/
theorem ofBits_two : Ideal.ofBits .f32 0x40000000#32 = ((2 : ℝ) : EReal) := by
  simp [Ideal.ofBits, Ideal.ieee, -EReal.coe_mul]; norm_num

/-- The pattern of -2.0 denotes the real -2. -/
theorem ofBits_negTwo : Ideal.ofBits .f32 0xC0000000#32 = ((-2 : ℝ) : EReal) := by
  simp [Ideal.ofBits, Ideal.ieee, -EReal.coe_mul]; norm_num

/-! ## Finite sums of reals inside the extended reals -/

/-- A finite sum of coerced reals is the coerced sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## The specification -/

abbrev XArr := (⟨2, ![16384, 784]⟩ : Shape).Idx → EReal
abbrev CArr := (⟨2, ![2048, 784]⟩ : Shape).Idx → EReal
abbrev LArr := (⟨1, ![2048]⟩ : Shape).Idx → EReal
abbrev WArr := (⟨2, ![10, 2048]⟩ : Shape).Idx → EReal
abbrev BArr := (⟨1, ![10]⟩ : Shape).Idx → EReal
abbrev OArr := (⟨2, ![16384, 10]⟩ : Shape).Idx → EReal

/-- The squared Euclidean norm of row r of the batch. -/
def sqNormX (x : XArr) (r : Fin 16384) : EReal := ∑ k : Fin 784, x (ix2 r k) * x (ix2 r k)

/-- The squared Euclidean norm of centre c. -/
def sqNormC (ce : CArr) (c : Fin 2048) : EReal := ∑ k : Fin 784, ce (ix2 c k) * ce (ix2 c k)

/-- The inner product of row r of the batch with centre c. -/
def inner (x : XArr) (ce : CArr) (r : Fin 16384) (c : Fin 2048) : EReal := ∑ k : Fin 784, x (ix2 r k) * ce (ix2 c k)

/-- The squared distance from row r to centre c by the polarization formula, clamped at zero. -/
def sqDist (x : XArr) (ce : CArr) (r : Fin 16384) (c : Fin 2048) : EReal :=
  max ((sqNormX x r + sqNormC ce c) - Ideal.ofBits .f32 0x40000000#32 * inner x ce r c) 0

/-- The basis value with the squared distance SCALED by exp (-2 * ls c). -/
def basisScaled (x : XArr) (ce : CArr) (ls : LArr) (r : Fin 16384) (c : Fin 2048) : EReal :=
  Ideal.exp (-(sqDist x ce r c * Ideal.exp (Ideal.ofBits .f32 0xC0000000#32 * ls (ix1 c))))

/-- The basis value with the distance DIVIDED by the width exp (ls c), then squared. -/
def basisQuot (x : XArr) (ce : CArr) (ls : LArr) (r : Fin 16384) (c : Fin 2048) : EReal :=
  Ideal.exp (-(Ideal.div (Ideal.sqrt (sqDist x ce r c)) (Ideal.exp (ls (ix1 c)))
    * Ideal.div (Ideal.sqrt (sqDist x ce r c)) (Ideal.exp (ls (ix1 c)))))

/-- The linear read-out of a basis at row r, class o. -/
def readoutAt (φ : Fin 16384 → Fin 2048 → EReal) (W : WArr) (b : BArr) (r : Fin 16384) (o : Fin 10) : EReal :=
  (∑ c : Fin 2048, φ r c * W (ix2 o c)) + b (ix1 o)

/-- The read-out as an array. -/
def readout (φ : Fin 16384 → Fin 2048 → EReal) (W : WArr) (b : BArr) : OArr :=
  fun i => readoutAt φ W b (i 0) (i 1)

theorem readout_ix2 (φ : Fin 16384 → Fin 2048 → EReal) (W : WArr) (b : BArr) (r : Fin 16384) (o : Fin 10) :
    readout φ W b (ix2 r o) = readoutAt φ W b r o := rfl

/-! ## The law -/

/-- On real data the clamped squared distance is a nonnegative real. -/
theorem sqDist_real (x : XArr) (ce : CArr) (hx : ∀ i, ∃ v : ℝ, x i = v) (hc : ∀ i, ∃ v : ℝ, ce i = v)
    (r : Fin 16384) (c : Fin 2048) : ∃ d : ℝ, 0 ≤ d ∧ sqDist x ce r c = d := by
  choose xr hxr using hx
  choose cr hcr using hc
  refine ⟨max (((∑ k : Fin 784, xr (ix2 r k) * xr (ix2 r k)) + ∑ k : Fin 784, cr (ix2 c k) * cr (ix2 c k))
    - 2 * ∑ k : Fin 784, xr (ix2 r k) * cr (ix2 c k)) 0, le_max_right _ _, ?_⟩
  unfold sqDist sqNormX sqNormC inner
  simp only [hxr, hcr, ofBits_two, ← EReal.coe_mul, coe_sum, ← EReal.coe_add, ← EReal.coe_sub]
  rw [← EReal.coe_zero]
  exact (EReal.coe_strictMono.monotone.map_max).symm

/-- For a real d >= 0 and a real l: d * e^(-2l) = (sqrt d / e^l) * (sqrt d / e^l), in the extended reals'
    operations. -/
theorem scaled_eq_quot (d l : ℝ) (hd : 0 ≤ d) :
    (d : EReal) * Ideal.exp (Ideal.ofBits .f32 0xC0000000#32 * (l : EReal))
      = Ideal.div (Ideal.sqrt (d : EReal)) (Ideal.exp (l : EReal)) * Ideal.div (Ideal.sqrt (d : EReal)) (Ideal.exp (l : EReal)) := by
  have he : Real.exp l ≠ 0 := (Real.exp_pos l).ne'
  have h2 : Real.exp (-2 * l) = (1 / Real.exp l) * (1 / Real.exp l) := by
    rw [one_div, ← Real.exp_neg, ← Real.exp_add]; congr 1; ring
  rw [ofBits_negTwo, ← EReal.coe_mul, Ideal.exp_coe, Ideal.exp_coe, Ideal.sqrt_coe, if_neg (not_lt.mpr hd),
    Ideal.div_coe he, ← EReal.coe_mul, ← EReal.coe_mul, ← EReal.coe_mul]
  congr 1
  rw [h2]
  calc d * (1 / Real.exp l * (1 / Real.exp l))
      = (Real.sqrt d * Real.sqrt d) * (1 / Real.exp l * (1 / Real.exp l)) := by rw [Real.mul_self_sqrt hd]
    _ = Real.sqrt d * (1 / Real.exp l) * (Real.sqrt d * (1 / Real.exp l)) := by ring

/-- THE LAW: on real data the two spellings of the basis value agree. -/
theorem basisScaled_eq_basisQuot (x : XArr) (ce : CArr) (ls : LArr) (hx : ∀ i, ∃ v : ℝ, x i = v)
    (hc : ∀ i, ∃ v : ℝ, ce i = v) (hl : ∀ i, ∃ v : ℝ, ls i = v) (r : Fin 16384) (c : Fin 2048) :
    basisScaled x ce ls r c = basisQuot x ce ls r c := by
  obtain ⟨d, hd0, hd⟩ := sqDist_real x ce hx hc r c
  obtain ⟨l, hl'⟩ := hl (ix1 c)
  unfold basisScaled basisQuot
  rw [hd, hl', scaled_eq_quot d l hd0]

end Cert.Rbf

end
-- ==== Proof.Finite.lean ====
/-
  What the precondition says of the data: every entry of the batch, of the centres and of the log-widths is a
  REAL number.

  The precondition is the conjunction, array by array, of "every entry has absolute value below +infinity". An
  extended real a with max a (-a) < +infinity is neither +infinity nor -infinity (at either, the maximum of a and
  -a is +infinity), hence a real. The conjunction is a chain of one-bit ands of five all-reductions; each
  all-reduction that came out 1 had a 1 at every index.
-/
import proofs.«122042_j23922967839460_1_alg».proof.Pre_finite_inputs
import Idealize.ShloMosaic.PureOps.Ideal
import Idealize.ShloMosaic.Lib.ReduceAll
import Idealize.ShloMosaic.Lib.ValueIdx

noncomputable section

open Idealize.ShloMosaic

namespace Cert.Rbf.Finite

open Cert.Pre_finite_inputs

variable [Cert.Pre_finite_inputs.Facts]

/-- The scalar shape has one index. -/
instance : Subsingleton S_.Idx := ⟨fun a b => funext fun d => d.elim0⟩

/-- The pattern 0x7F800000 denotes +infinity. -/
theorem ofBits_inf : Ideal.ofBits .f32 0x7F800000#32 = ⊤ := by
  simp [Ideal.ofBits, Ideal.ieee]

/-- An extended real whose absolute value compares below +infinity is a real. -/
theorem real_of_abs_lt (a : EReal)
    (h : Ideal.cmp .olt (max a (-a)) (Ideal.ofBits .f32 0x7F800000#32) = 1#1) : ∃ v : ℝ, a = v := by
  rw [ofBits_inf] at h
  have hlt : max a (-a) < ⊤ := by
    by_contra hn
    simp [Ideal.cmp, hn] at h
  induction a using EReal.rec with
  | bot => simp at hlt
  | top => simp at hlt
  | coe r => exact ⟨r, rfl⟩

/-- One array's test, read at an index: an entry whose bit is 1 is a real. -/
theorem real_of_bit {s : Shape} (x : FVec Ideal s .f32) (hb : S_.BroadcastsInDim s (![] : Fin 0 → Fin s.rank)) (i : s.Idx)
    (e : cmpf (F := Ideal) .olt (Host.absf x) (broadcastInDim s ![] hb (constant (F := Ideal) S_ .f32 0x7F800000#32)) i = 1#1) :
    ∃ v : ℝ, x i = v :=
  real_of_abs_lt (x i) e

/-- Under the precondition the batch, the centres and the log-widths hold reals only. -/
theorem real_of_pre (x : FVec Ideal S16384x784 .f32) (ce : FVec Ideal S2048x784 .f32) (ls : FVec Ideal S2048 .f32)
    (W : FVec Ideal S10x2048 .f32) (b : FVec Ideal S10 .f32)
    (h : fn (F := Ideal) x ce ls W b = fun _ => 1#1) :
    (∀ i, ∃ v : ℝ, x i = v) ∧ (∀ i, ∃ v : ℝ, ce i = v) ∧ (∀ i, ∃ v : ℝ, ls i = v) := by
  have h0 := congrFun h ValueIdx.ix0
  dsimp only [fn, fn_part1] at h0
  obtain ⟨h18, -⟩ := IntOp.andi_eq_one.1 h0
  obtain ⟨h13, -⟩ := IntOp.andi_eq_one.1 h18
  obtain ⟨h8, h12⟩ := IntOp.andi_eq_one.1 h13
  obtain ⟨h3, h7⟩ := IntOp.andi_eq_one.1 h8
  refine ⟨fun i => ?_, fun i => ?_, fun i => ?_⟩
  · exact real_of_bit x _ i (Host.reduce_andi_all _ _ _ _ _ h3 i)
  · exact real_of_bit ce _ i (Host.reduce_andi_all _ _ _ _ _ h7 i)
  · exact real_of_bit ls _ i (Host.reduce_andi_all _ _ _ _ _ h12 i)

end Cert.Rbf.Finite

end
-- ==== Proof.RefValue.lean ====
/-
  The reference program computes the read-out of the QUOTIENT form of the basis.

  Read one operation at a time, entry (r, o) of the reference's result is
    (sum over c of exp (-((sqrt (sqDist r c) / exp (ls c)) * (sqrt (sqDist r c) / exp (ls c)))) * W o c) + b o,
  where sqDist r c = max ((|x_r|^2 + |ce_c|^2) - 2 * <x_r, ce_c>) 0: the two host sums of squares start from the
  zero pattern, which denotes 0; the matrix product with the transposed centres is the inner product of row r
  with centre c; the product with the transposed read-out matrix pairs basis column c with W o c.
-/
import proofs.«122042_j23922967839460_1_alg».proof.Proof.Gen.ReferenceIdeal.Read
import proofs.«122042_j23922967839460_1_alg».proof.Proof.RbfLaw

noncomputable section

open scoped BigOperators
open Idealize.ShloMosaic Idealize.ShloMosaic.ValueIdx

namespace Cert.Rbf.Ref

open Cert.Rbf Cert.ReferenceIdeal Cert.ReferenceIdeal.Gen Cert.ReferenceIdeal.Read

/-! ## Where each operation reads its operands, at entry (r, c) of the [16384, 2048] stage -/

theorem idx_sqx (r : Fin 16384) (c : Fin 2048) (k : Fin 784) :
    idx_main_v1 (idx_main_v2 (idx_main_v6 (ix2 r c))) k = ix2 r k :=
  funext fun a => Fin.ext (by match a with | ⟨0, _⟩ => rfl | ⟨1, _⟩ => rfl)

theorem idx_sqc (r : Fin 16384) (c : Fin 2048) (k : Fin 784) :
    idx_main_v4 (idx_main_v5 (idx_main_v7 (ix2 r c))) k = ix2 c k :=
  funext fun a => Fin.ext (by match a with | ⟨0, _⟩ => rfl | ⟨1, _⟩ => rfl)

theorem idx_dotl (r : Fin 16384) (c : Fin 2048) (k : Fin 784) :
    lidx_main_v10 (ix2 r c) k = ix2 r k :=
  funext fun a => Fin.ext (by match a with | ⟨0, _⟩ => rfl | ⟨1, _⟩ => rfl)

theorem idx_dotr (r : Fin 16384) (c : Fin 2048) (k : Fin 784) :
    idx_main_v9 (ridx_main_v10 (ix2 r c) k) = ix2 c k :=
  funext fun a => Fin.ext (by match a with | ⟨0, _⟩ => rfl | ⟨1, _⟩ => rfl)

theorem idx_width (r : Fin 16384) (c : Fin 2048) :
    idx_main_v18 (idx_main_v19 (ix2 r c)) = ix1 c :=
  funext fun a => Fin.ext (by match a with | ⟨0, _⟩ => rfl)

/-! ## At entry (r, o) of the result -/

theorem idx_basis (r : Fin 16384) (o : Fin 10) (c : Fin 2048) :
    lidx_main_v25 (ix2 r o) c = ix2 r c :=
  funext fun a => Fin.ext (by match a with | ⟨0, _⟩ => rfl | ⟨1, _⟩ => rfl)

theorem idx_weight (r : Fin 16384) (o : Fin 10) (c : Fin 2048) :
    idx_main_v24 (ridx_main_v25 (ix2 r o) c) = ix2 o c :=
  funext fun a => Fin.ext (by match a with | ⟨0, _⟩ => rfl | ⟨1, _⟩ => rfl)

theorem idx_bias (r : Fin 16384) (o : Fin 10) :
    idx_main_v26 (idx_main_v27 (ix2 r o)) = ix1 o :=
  funext fun a => Fin.ext (by match a with | ⟨0, _⟩ => rfl)

/-! ## The stages -/

/-- The clamped squared distance, as the reference computes it. -/
theorem sqDist_stage (x : XArr) (ce : CArr) (r : Fin 16384) (c : Fin 2048) :
    val_main_v15 (F := Ideal) x ce (ix2 r c) = sqDist x ce r c := by
  simp only [val_main_v15_apply, val_main_v13_apply, val_main_v8_apply, val_main_v12_apply, val_main_v14_apply,
    val_main_cst_2_apply, val_main_v11_apply, val_main_cst_1_apply, val_main_v6_apply, val_main_v2_apply,
    val_main_v1_apply, val_main_v7_apply, val_main_v5_apply, val_main_v4_apply, val_main_v10_apply,
    val_main_v9_apply, val_main_cst_apply, val_main_cst_0_apply, val_main_v0_apply, val_main_v3_apply,
    Ideal.maximumf_def, Ideal.subf_def, Ideal.addf_def, Ideal.mulf_def, Ideal.ofBits_def, Ideal.ofBits_zero_f32,
    zero_add, idx_sqx, idx_sqc, idx_dotl, idx_dotr]
  rfl

/-- The basis value, as the reference computes it. -/
theorem basis_stage (x : XArr) (ce : CArr) (ls : LArr) (r : Fin 16384) (c : Fin 2048) :
    val_main_v23 (F := Ideal) x ce ls (ix2 r c) = basisQuot x ce ls r c := by
  simp only [val_main_v23_apply, val_main_v22_apply, val_main_v21_apply, val_main_v20_apply, val_main_v16_apply,
    val_main_v19_apply, val_main_v18_apply, val_main_v17_apply, sqDist_stage, idx_width,
    Ideal.hostUnary_exp_def, Ideal.hostUnary_sqrt_def, Ideal.hostNegf_def, Ideal.negf_def, Ideal.mulf_def,
    Ideal.hostDivf_def]
  rfl

/-- THE REFERENCE'S RESULT is the read-out of the quotient-form basis. -/
theorem result_eq (x : XArr) (ce : CArr) (ls : LArr) (W : WArr) (b : BArr) :
    val_main_v28 (F := Ideal) x ce ls W b = readout (basisQuot x ce ls) W b := by
  funext i
  obtain ⟨r, o, rfl⟩ : ∃ (r : Fin 16384) (o : Fin 10), i = ix2 r o := ⟨i 0, i 1, eq_ix2 i⟩
  rw [readout_ix2]
  simp only [val_main_v28_apply, val_main_v25_apply, val_main_v27_apply, val_main_v26_apply, val_main_v24_apply,
    idx_basis, idx_weight, idx_bias, basis_stage, Ideal.addf_def]
  rfl

end Cert.Rbf.Ref

end
-- ==== Proof.Payload.lean ====
/-
  The kernel body's arithmetic, read at one entry.

  The body holds a block of 512 batch rows v0, the transposed centres v5 : [784, 2048], the centres' squared norms
  v8 : [1, 2048], the inverse squared widths v18 : [1, 2048], the transposed read-out matrix v26 : [2048, 10] and
  the bias v29 : [1, 10]. At entry (p, q) of its [512, 10] result it computes

    (sum over c of exp (-(max ((|v0_p|^2 + v8 c) - 2 * <v0_p, v5 c>) 0 * v18 c)) * v26 c q) + v29 q :

  the lane sum of squares, kept as a column and spread over the 2048 centres; a matrix product into a zero
  accumulator, which is the plain sum over the contracted axis; subtraction from zero, which is negation; and
  changes of float format, which are the identity on the extended reals.
-/
import proofs.«122042_j23922967839460_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.Rbf.Body

open Cert.KernelIdeal Cert.KernelIdeal.Gen

variable {α : Type}

/-! ## A column kept from a row reduction, and spread over the columns -/

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Pointwise operations the index passes through -/

/-- The exponential at an index is the exponential of the entry. -/
theorem exp_apply {s : Shape} {φ : FTy} (a : FVec Ideal s φ) (i : s.Idx) : exp a i = Ideal.exp (a i) := rfl

/-- A scalar constant is the extended real its pattern denotes. -/
theorem scalar_ofBits (φ : FTy) (b : BitVec φ.bits) : Scalar.ofBits (F := Ideal) φ b = Ideal.ofBits φ b := rfl

/-! ## The lane sum -/

/-- The sum over the 784 lanes of row p. -/
theorem laneSum_apply (v : FVec Ideal S512x784 .f32) (hφ : FTy.f32 = FTy.f32 ∨ FTy.f32 = FTy.bf16)
    (hacc : (0x00000000#32 : BitVec (FTy.bits .f32)) = 0x00000000#32) (p : Fin 512) :
    multiReduction .add [1] S512 v 0x00000000#32 reduces_S512x784_S512 hφ hacc (ix1 p)
      = ∑ k : Fin 784, v (ix2 p k) :=
  (Ideal.multiReduction_add_single v _ reduces_S512x784_S512 hφ hacc (ix1 p)).trans
    (Finset.sum_congr rfl fun k _ => congrArg v (funext fun a => Fin.ext (by
      match a with
      | ⟨0, _⟩ => rfl
      | ⟨1, _⟩ => rfl)))

/-! ## The product with the transposed centres -/

theorem lhs_cross_0 (i : S512x2048.Idx) (q : dot_S512x784_S784x2048_S512x2048_1_0_0_1_n_n.contr.Idx) :
    (dot_S512x784_S784x2048_S512x2048_1_0_0_1_n_n.lhsIdx i q 0).val = (i 0).val := by
  unfold DotDims.lhsIdx
  rw [dif_neg (show ¬(0 : Fin S512x784.rank) ∈ dot_S512x784_S784x2048_S512x2048_1_0_0_1_n_n.lhsBatch by decide), dif_pos (show (0 : Fin S512x784.rank) ∈ dot_S512x784_S784x2048_S512x2048_1_0_0_1_n_n.lhsNonContracting by decide)]
  rfl
theorem lhs_cross_1 (i : S512x2048.Idx) (q : dot_S512x784_S784x2048_S512x2048_1_0_0_1_n_n.contr.Idx) :
    (dot_S512x784_S784x2048_S512x2048_1_0_0_1_n_n.lhsIdx i q 1).val = (q ⟨0, by decide⟩).val :=
  dot_S512x784_S784x2048_S512x2048_1_0_0_1_n_n.lhsIdx_val_of_single rfl i q
theorem rhs_cross_0 (i : S512x2048.Idx) (q : dot_S512x784_S784x2048_S512x2048_1_0_0_1_n_n.contr.Idx) :
    (dot_S512x784_S784x2048_S512x2048_1_0_0_1_n_n.rhsIdx i q 0).val = (q ⟨0, by decide⟩).val :=
  dot_S512x784_S784x2048_S512x2048_1_0_0_1_n_n.rhsIdx_val_of_single rfl i q
theorem rhs_cross_1 (i : S512x2048.Idx) (q : dot_S512x784_S784x2048_S512x2048_1_0_0_1_n_n.contr.Idx) :
    (dot_S512x784_S784x2048_S512x2048_1_0_0_1_n_n.rhsIdx i q 1).val = (i 1).val := by
  unfold DotDims.rhsIdx
  rw [dif_neg (show ¬(1 : Fin S784x2048.rank) ∈ dot_S512x784_S784x2048_S512x2048_1_0_0_1_n_n.rhsBatch by decide), dif_pos (show (1 : Fin S784x2048.rank) ∈ dot_S512x784_S784x2048_S512x2048_1_0_0_1_n_n.rhsNonContracting by decide)]
  rfl

/-- Entry (p, c) of the product of a [512, 784] block with a [784, 2048] matrix, into a zero accumulator. -/
theorem cross_apply (l : FVec Ideal S512x784 .bf16) (r : FVec Ideal S784x2048 .bf16) (p : Fin 512) (c : Fin 2048) :
    matmul dot_S512x784_S784x2048_S512x2048_1_0_0_1_n_n none l r (constant (F := Ideal) S512x2048 .f32 0x00000000#32) (ix2 p c)
      = ∑ k : Fin 784, l (ix2 p k) * r (ix2 k c) := by
  simp only [matmul]
  rw [Ideal.matmul_constant_zero_apply, ← Equiv.sum_comp (contrEquiv1 dot_S512x784_S784x2048_S512x2048_1_0_0_1_n_n 784 rfl rfl).symm]
  refine Finset.sum_congr rfl fun k _ => ?_
  have hk := contrEquiv1_symm_val dot_S512x784_S784x2048_S512x2048_1_0_0_1_n_n 784 rfl rfl k
  have el : dot_S512x784_S784x2048_S512x2048_1_0_0_1_n_n.lhsIdx (ix2 p c) ((contrEquiv1 dot_S512x784_S784x2048_S512x2048_1_0_0_1_n_n 784 rfl rfl).symm k) = ix2 p k := funext fun a => Fin.ext (by
    match a with
    | ⟨0, _⟩ => exact lhs_cross_0 _ _
    | ⟨1, _⟩ => exact (lhs_cross_1 _ _).trans hk)
  have er : dot_S512x784_S784x2048_S512x2048_1_0_0_1_n_n.rhsIdx (ix2 p c) ((contrEquiv1 dot_S512x784_S784x2048_S512x2048_1_0_0_1_n_n 784 rfl rfl).symm k) = ix2 k c := funext fun a => Fin.ext (by
    match a with
    | ⟨0, _⟩ => exact (rhs_cross_0 _ _).trans hk
    | ⟨1, _⟩ => exact rhs_cross_1 _ _)
  rw [el, er]

/-! ## The product with the transposed read-out matrix -/

theorem lhs_out_0 (i : S512x10.Idx) (q : dot_S512x2048_S2048x10_S512x10_1_0_0_1_n_n.contr.Idx) :
    (dot_S512x2048_S2048x10_S512x10_1_0_0_1_n_n.lhsIdx i q 0).val = (i 0).val := by
  unfold DotDims.lhsIdx
  rw [dif_neg (show ¬(0 : Fin S512x2048.rank) ∈ dot_S512x2048_S2048x10_S512x10_1_0_0_1_n_n.lhsBatch by decide), dif_pos (show (0 : Fin S512x2048.rank) ∈ dot_S512x2048_S2048x10_S512x10_1_0_0_1_n_n.lhsNonContracting by decide)]
  rfl
theorem lhs_out_1 (i : S512x10.Idx) (q : dot_S512x2048_S2048x10_S512x10_1_0_0_1_n_n.contr.Idx) :
    (dot_S512x2048_S2048x10_S512x10_1_0_0_1_n_n.lhsIdx i q 1).val = (q ⟨0, by decide⟩).val :=
  dot_S512x2048_S2048x10_S512x10_1_0_0_1_n_n.lhsIdx_val_of_single rfl i q
theorem rhs_out_0 (i : S512x10.Idx) (q : dot_S512x2048_S2048x10_S512x10_1_0_0_1_n_n.contr.Idx) :
    (dot_S512x2048_S2048x10_S512x10_1_0_0_1_n_n.rhsIdx i q 0).val = (q ⟨0, by decide⟩).val :=
  dot_S512x2048_S2048x10_S512x10_1_0_0_1_n_n.rhsIdx_val_of_single rfl i q
theorem rhs_out_1 (i : S512x10.Idx) (q : dot_S512x2048_S2048x10_S512x10_1_0_0_1_n_n.contr.Idx) :
    (dot_S512x2048_S2048x10_S512x10_1_0_0_1_n_n.rhsIdx i q 1).val = (i 1).val := by
  unfold DotDims.rhsIdx
  rw [dif_neg (show ¬(1 : Fin S2048x10.rank) ∈ dot_S512x2048_S2048x10_S512x10_1_0_0_1_n_n.rhsBatch by decide), dif_pos (show (1 : Fin S2048x10.rank) ∈ dot_S512x2048_S2048x10_S512x10_1_0_0_1_n_n.rhsNonContracting by decide)]
  rfl

/-- Entry (p, q) of the product of a [512, 2048] block with a [2048, 10] matrix, into a zero accumulator. -/
theorem out_apply (l : FVec Ideal S512x2048 .bf16) (r : FVec Ideal S2048x10 .bf16) (p : Fin 512) (q : Fin 10) :
    matmul dot_S512x2048_S2048x10_S512x10_1_0_0_1_n_n none l r (constant (F := Ideal) S512x10 .f32 0x00000000#32) (ix2 p q)
      = ∑ c : Fin 2048, l (ix2 p c) * r (ix2 c q) := by
  simp only [matmul]
  rw [Ideal.matmul_constant_zero_apply, ← Equiv.sum_comp (contrEquiv1 dot_S512x2048_S2048x10_S512x10_1_0_0_1_n_n 2048 rfl rfl).symm]
  refine Finset.sum_congr rfl fun k _ => ?_
  have hk := contrEquiv1_symm_val dot_S512x2048_S2048x10_S512x10_1_0_0_1_n_n 2048 rfl rfl k
  have el : dot_S512x2048_S2048x10_S512x10_1_0_0_1_n_n.lhsIdx (ix2 p q) ((contrEquiv1 dot_S512x2048_S2048x10_S512x10_1_0_0_1_n_n 2048 rfl rfl).symm k) = ix2 p k := funext fun a => Fin.ext (by
    match a with
    | ⟨0, _⟩ => exact lhs_out_0 _ _
    | ⟨1, _⟩ => exact (lhs_out_1 _ _).trans hk)
  have er : dot_S512x2048_S2048x10_S512x10_1_0_0_1_n_n.rhsIdx (ix2 p q) ((contrEquiv1 dot_S512x2048_S2048x10_S512x10_1_0_0_1_n_n 2048 rfl rfl).symm k) = ix2 k q := funext fun a => Fin.ext (by
    match a with
    | ⟨0, _⟩ => exact (rhs_out_0 _ _).trans hk
    | ⟨1, _⟩ => exact rhs_out_1 _ _)
  rw [el, er]

/-! ## The whole body at an entry -/

/-- What the body stores at entry (p, q), from its six loads. -/
theorem payload_apply (v0 : FVec Ideal S512x784 .f32) (v5 : FVec Ideal S784x2048 .bf16) (v8 v18 : FVec Ideal S1x2048 .f32)
    (v26 : FVec Ideal S2048x10 .bf16) (v29 : FVec Ideal S1x10 .f32) (p : Fin 512) (q : Fin 10) :
    k0_pay1 (F := Ideal) v0 v5 v8 v18 v26 v29 (ix2 p q)
      = (∑ c : Fin 2048, Ideal.exp (-(max (((∑ k : Fin 784, v0 (ix2 p k) * v0 (ix2 p k)) + v8 (ix2 (0 : Fin 1) c))
            - Ideal.ofBits .f32 0x40000000#32 * ∑ k : Fin 784, v0 (ix2 p k) * v5 (ix2 k c)) 0 * v18 (ix2 (0 : Fin 1) c)))
          * v26 (ix2 c q)) + v29 (ix2 (0 : Fin 1) q) := by
  unfold k0_pay1
  simp only [shapeCast_self, addf_apply, subf_apply, mulf_apply, maximumf_apply, exp_apply, truncf_apply, broadcast_apply,
    scalar_ofBits, out_apply, cross_apply, shapeCast_a_a1_apply, broadcastTo_a1_ab_apply,
    broadcastTo_1b_ab_apply, Ideal.ofBits_zero_f32, zero_sub]
  rw [laneSum_apply (mulf v0 v0)]
  simp only [mulf_apply]

end Cert.Rbf.Body

end
-- ==== Proof.Prep.lean ====
/-
  What the host prepares for the kernel, read at one entry.

  Before the kernel runs, the host computes from the centres ce : [2048, 784], the log-widths ls : [2048], the
  read-out matrix W : [10, 2048] and the bias b : [10]:

    the transposed centres       [784, 2048]   entry (k, c) is ce c k
    the centres' squared norms   [1, 2048]     entry (0, c) is the sum over k of (ce c k)^2   (a host sum from zero)
    the inverse squared widths   [1, 2048]     entry (0, c) is exp (-2 * ls c)
    the transposed read-out      [2048, 10]    entry (c, q) is W q c
    the bias as a row            [1, 10]       entry (0, q) is b q

  The two conversions to a 16-bit float format are the identity on the extended reals.
-/
import proofs.«122042_j23922967839460_1_alg».proof.Proof.Gen.KernelIdeal
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.Rbf.Prep

open Cert.KernelIdeal Cert.KernelIdeal.Gen

/-- The transposed centres at (k, c). -/
theorem centresT_apply (ce : FVec Ideal S2048x784 .f32) (k : Fin 784) (c : Fin 2048) :
    (truncf .bf16 (transpose S784x2048 [1, 0] ce transposes_S2048x784_S784x2048_1_0) bitsLt_bf16_f32 : FVec Ideal S784x2048 .bf16) (ix2 k c)
      = ce (ix2 c k) := by
  rw [truncf_apply]
  exact transpose_apply [1, 0] ce transposes_S2048x784_S784x2048_1_0 (ix2 k c) (ix2 c k) (fun b => match b with
    | ⟨0, _⟩ => rfl
    | ⟨1, _⟩ => rfl)

/-- The transposed read-out matrix at (c, q). -/
theorem readoutT_apply (W : FVec Ideal S10x2048 .f32) (c : Fin 2048) (q : Fin 10) :
    (truncf .bf16 (transpose S2048x10 [1, 0] W transposes_S10x2048_S2048x10_1_0) bitsLt_bf16_f32 : FVec Ideal S2048x10 .bf16) (ix2 c q)
      = W (ix2 q c) := by
  rw [truncf_apply]
  exact transpose_apply [1, 0] W transposes_S10x2048_S2048x10_1_0 (ix2 c q) (ix2 q c) (fun b => match b with
    | ⟨0, _⟩ => rfl
    | ⟨1, _⟩ => rfl)

/-- The bias row at (0, q). -/
theorem biasRow_apply (b : FVec Ideal S10 .f32) (q : Fin 10) :
    (broadcastInDim S1x10 ![1] bcast_S10_S1x10_1 b : FVec Ideal S1x10 .f32) (ix2 (0 : Fin 1) q) = b (ix1 q) :=
  broadcastInDim_apply _ bcast_S10_S1x10_1 b (ix2 (0 : Fin 1) q) (ix1 q) (fun a => match a with
    | ⟨0, _⟩ => by show q.val = if (10 : Nat) = 1 then 0 else q.val; rw [if_neg (by decide)])

/-- The centres' squared norms at (0, c): the host's sum starts from the zero pattern, which denotes 0. -/
theorem centreNorms_apply (ce : FVec Ideal S2048x784 .f32) (c : Fin 2048) :
    (broadcastInDim S1x2048 ![1] bcast_S2048_S1x2048_1
        (Host.reduceAdd (F := Ideal) (mulf ce ce) (constant (F := Ideal) S_ .f32 0x00000000#32) reducesTo_S2048x784_S2048_d1 h_S_)
        : FVec Ideal S1x2048 .f32) (ix2 (0 : Fin 1) c)
      = ∑ k : Fin 784, ce (ix2 c k) * ce (ix2 c k) := by
  rw [broadcastInDim_apply _ bcast_S2048_S1x2048_1 _ (ix2 (0 : Fin 1) c) (ix1 c) (fun a => match a with
    | ⟨0, _⟩ => by show c.val = if (2048 : Nat) = 1 then 0 else c.val; rw [if_neg (by decide)])]
  simp only [Host.reduceAdd, Ideal.hostReduceAdd_def]
  rw [Ideal.hostReduceAdd_single reducesTo_S2048x784_S2048_d1 (by decide)]
  show Ideal.ofBits .f32 0x00000000#32 + _ = _
  rw [Ideal.ofBits_zero_f32, zero_add]
  refine Finset.sum_congr rfl fun k _ => ?_
  show ce _ * ce _ = _
  rw [show ((by decide : S2048x784.Reduces [1] S2048).lift (ix1 c) k) = ix2 c k from
    funext fun a => Fin.ext (by match a with | ⟨0, _⟩ => rfl | ⟨1, _⟩ => rfl)]
  rfl

/-- The inverse squared widths at (0, c). -/
theorem invWidths_apply (ls : FVec Ideal S2048 .f32) (c : Fin 2048) :
    (broadcastInDim S1x2048 ![1] bcast_S2048_S1x2048_1
        (Host.exp (F := Ideal) (mulf (broadcastInDim S2048 ![] bcast_S_S2048 (constant (F := Ideal) S_ .f32 0xC0000000#32)) ls))
        : FVec Ideal S1x2048 .f32) (ix2 (0 : Fin 1) c)
      = Ideal.exp (Ideal.ofBits .f32 0xC0000000#32 * ls (ix1 c)) := by
  rw [broadcastInDim_apply _ bcast_S2048_S1x2048_1 _ (ix2 (0 : Fin 1) c) (ix1 c) (fun a => match a with
    | ⟨0, _⟩ => by show c.val = if (2048 : Nat) = 1 then 0 else c.val; rw [if_neg (by decide)])]
  show Ideal.exp ((broadcastInDim S2048 ![] bcast_S_S2048 (constant (F := Ideal) S_ .f32 0xC0000000#32)) (ix1 c) * ls (ix1 c)) = _
  rw [broadcastInDim_apply _ bcast_S_S2048 (constant (F := Ideal) S_ .f32 0xC0000000#32) (ix1 c) ix0 (fun a => a.elim0)]
  rfl

end Cert.Rbf.Prep

end
-- ==== Proof.KernelRun.lean ====
/-
  The kernel's run computes the read-out of the SCALED form of the basis.

  The grid has 32 points; point t handles batch rows 512 t .. 512 t + 511. At every point the kernel sees the whole
  of the five arrays the host prepared (their block index is always (0, 0)) and block t of the batch, and it writes
  block t of the result, all 10 columns. Entry (p, q) of what point t writes is the body's arithmetic on those blocks,
  which is the read-out at batch row 512 t + p, class q, with the basis value exp (-(sqDist * exp (-2 * ls c))). The
  32 blocks tile the [16384, 10] result: row r lies in block r / 512.
-/
import proofs.«122042_j23922967839460_1_alg».proof.Proof.Gen.KernelIdeal.Value
import proofs.«122042_j23922967839460_1_alg».proof.Proof.RbfLaw
import proofs.«122042_j23922967839460_1_alg».proof.Proof.Payload
import proofs.«122042_j23922967839460_1_alg».proof.Proof.Prep
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Rbf.Kern

open Cert.Rbf Cert.KernelIdeal Cert.KernelIdeal.Gen

variable (m : (ℓ : Loc nD τ sig) → Buf (Elt Ideal) ℓ) (ρ : Dev nD → PrngReg)

/-! ## The five argument arrays, and the result -/

abbrev xArr (c : Dev nD) : XArr := m ((c : Thread nD τ).loc main_arg0)
abbrev cArr (c : Dev nD) : CArr := m ((c : Thread nD τ).loc main_arg1)
abbrev lArr (c : Dev nD) : LArr := m ((c : Thread nD τ).loc main_arg2)
abbrev wArr (c : Dev nD) : WArr := m ((c : Thread nD τ).loc main_arg3)
abbrev bArr (c : Dev nD) : BArr := m ((c : Thread nD τ).loc main_arg4)

/-- What the result array holds after the run: the read-out of the scaled-form basis of the arguments. -/
abbrev result (c : Dev nD) : Buf (Elt Ideal) ((c : Thread nD τ).loc main_v12) :=
  readout (basisScaled (xArr m c) (cArr m c) (lArr m c)) (wArr m c) (bArr m c)

/-! ## The arrays the host prepared, as the kernel finds them -/

theorem found_centresT (c : Dev nD) :
    (V m c main_v8 : FVec Ideal S784x2048 .bf16)
      = truncf (F := Ideal) .bf16 (transpose S784x2048 [1, 0] (cArr m c) transposes_S2048x784_S784x2048_1_0) bitsLt_bf16_f32 := by
  dsimp only [V, hostOps0]; after_results; try rfl

theorem found_centreNorms (c : Dev nD) :
    (V m c main_v2 : FVec Ideal S1x2048 .f32)
      = broadcastInDim S1x2048 ![1] bcast_S2048_S1x2048_1
          (Host.reduceAdd (F := Ideal) (mulf (cArr m c) (cArr m c)) (constant (F := Ideal) S_ .f32 0x00000000#32) reducesTo_S2048x784_S2048_d1 h_S_) := by
  dsimp only [V, hostOps0]; after_results; try rfl

theorem found_invWidths (c : Dev nD) :
    (V m c main_v6 : FVec Ideal S1x2048 .f32)
      = broadcastInDim S1x2048 ![1] bcast_S2048_S1x2048_1
          (Host.exp (F := Ideal) (mulf (broadcastInDim S2048 ![] bcast_S_S2048 (constant (F := Ideal) S_ .f32 0xC0000000#32)) (lArr m c))) := by
  dsimp only [V, hostOps0]; after_results; try rfl

theorem found_readoutT (c : Dev nD) :
    (V m c main_v10 : FVec Ideal S2048x10 .bf16)
      = truncf (F := Ideal) .bf16 (transpose S2048x10 [1, 0] (wArr m c) transposes_S10x2048_S2048x10_1_0) bitsLt_bf16_f32 := by
  dsimp only [V, hostOps0]; after_results; try rfl

theorem found_biasRow (c : Dev nD) :
    (V m c main_v11 : FVec Ideal S1x10 .f32) = broadcastInDim S1x10 ![1] bcast_S10_S1x10_1 (bArr m c) := by
  dsimp only [V, hostOps0]; after_results; try rfl

/-! ## Where each window's block sits -/

/-- The index maps over the 32 grid points: the batch and the result move with the point along the rows; the five
    prepared arrays stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry (p, k) of the batch block at point t is row 512 t + p of the batch. -/
theorem batchBlock_apply (c : Dev nD) (t : Fin cfg0.N) (p : Fin 512) (k : Fin 784) (r : Fin 16384)
    (hr : r.val = 512 * t.val + p.val) :
    (iblk m c 0 t : FVec Ideal S512x784 .f32) (ix2 p k) = xArr m c (ix2 r k) := by
  obtain ⟨e0, e1, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * p.val = r.val; rw [e0, hr]; omega
  | ⟨1, _⟩ => show win0_0.index t 1 * 784 + 1 * k.val = k.val; rw [e1]; omega

/-- The block of the transposed centres is the whole array. -/
theorem centresTBlock_eq (c : Dev nD) (t : Fin cfg0.N) :
    (iblk m c 1 t : FVec Ideal S784x2048 .bf16) = (V m c main_v8 : FVec Ideal S784x2048 .bf16) := by
  obtain ⟨-, -, e0, e1, -⟩ := idx_facts t
  funext y
  unfold iblk
  rw [View.read_apply]
  show V m c main_v8 _ = V m c main_v8 y
  congr 1
  funext a
  apply Fin.ext
  match a with
  | ⟨0, _⟩ => show win0_1.index t 0 * 784 + 1 * (y 0).val = (y 0).val; rw [e0]; omega
  | ⟨1, _⟩ => show win0_1.index t 1 * 2048 + 1 * (y 1).val = (y 1).val; rw [e1]; omega

/-- The block of the centres' squared norms is the whole array. -/
theorem centreNormsBlock_eq (c : Dev nD) (t : Fin cfg0.N) :
    (iblk m c 2 t : FVec Ideal S1x2048 .f32) = (V m c main_v2 : FVec Ideal S1x2048 .f32) := by
  obtain ⟨-, -, -, -, e0, e1, -⟩ := idx_facts t
  funext y
  unfold iblk
  rw [View.read_apply]
  show V m c main_v2 _ = V m c main_v2 y
  congr 1
  funext a
  apply Fin.ext
  match a with
  | ⟨0, _⟩ => show win0_2.index t 0 * 1 + 1 * (y 0).val = (y 0).val; rw [e0]; omega
  | ⟨1, _⟩ => show win0_2.index t 1 * 2048 + 1 * (y 1).val = (y 1).val; rw [e1]; omega

/-- The block of the inverse squared widths is the whole array. -/
theorem invWidthsBlock_eq (c : Dev nD) (t : Fin cfg0.N) :
    (iblk m c 3 t : FVec Ideal S1x2048 .f32) = (V m c main_v6 : FVec Ideal S1x2048 .f32) := by
  obtain ⟨-, -, -, -, -, -, e0, e1, -⟩ := idx_facts t
  funext y
  unfold iblk
  rw [View.read_apply]
  show V m c main_v6 _ = V m c main_v6 y
  congr 1
  funext a
  apply Fin.ext
  match a with
  | ⟨0, _⟩ => show win0_3.index t 0 * 1 + 1 * (y 0).val = (y 0).val; rw [e0]; omega
  | ⟨1, _⟩ => show win0_3.index t 1 * 2048 + 1 * (y 1).val = (y 1).val; rw [e1]; omega

/-- The block of the transposed read-out matrix is the whole array. -/
theorem readoutTBlock_eq (c : Dev nD) (t : Fin cfg0.N) :
    (iblk m c 4 t : FVec Ideal S2048x10 .bf16) = (V m c main_v10 : FVec Ideal S2048x10 .bf16) := by
  obtain ⟨-, -, -, -, -, -, -, -, e0, e1, -⟩ := idx_facts t
  funext y
  unfold iblk
  rw [View.read_apply]
  show V m c main_v10 _ = V m c main_v10 y
  congr 1
  funext a
  apply Fin.ext
  match a with
  | ⟨0, _⟩ => show win0_4.index t 0 * 2048 + 1 * (y 0).val = (y 0).val; rw [e0]; omega
  | ⟨1, _⟩ => show win0_4.index t 1 * 10 + 1 * (y 1).val = (y 1).val; rw [e1]; omega

/-- The block of the bias row is the whole array. -/
theorem biasRowBlock_eq (c : Dev nD) (t : Fin cfg0.N) :
    (iblk m c 5 t : FVec Ideal S1x10 .f32) = (V m c main_v11 : FVec Ideal S1x10 .f32) := by
  obtain ⟨-, -, -, -, -, -, -, -, -, -, e0, e1, -⟩ := idx_facts t
  funext y
  unfold iblk
  rw [View.read_apply]
  show V m c main_v11 _ = V m c main_v11 y
  congr 1
  funext a
  apply Fin.ext
  match a with
  | ⟨0, _⟩ => show win0_5.index t 0 * 1 + 1 * (y 0).val = (y 0).val; rw [e0]; omega
  | ⟨1, _⟩ => show win0_5.index t 1 * 10 + 1 * (y 1).val = (y 1).val; rw [e1]; omega

/-! ## What one point writes -/

theorem hz : (![0, 0] : Fin 2 → Nat) = fun _ => 0 := funext fun a => by fin_cases a <;> rfl

/-- The body's one store covers its whole buffer, and every load reads a whole buffer: what the body leaves is its
    arithmetic on the six blocks. -/
theorem out_eq_payload (x0 : Vec Ideal S512x784 .f32) (x1 : Vec Ideal S784x2048 .bf16) (x2 x3 : Vec Ideal S1x2048 .f32)
    (x4 : Vec Ideal S2048x10 .bf16) (x5 : Vec Ideal S1x10 .f32) :
    out0_6 x0 x1 x2 x3 x4 x5 = k0_pay1 (F := Ideal) x0 x1 x2 x3 x4 x5 := by
  unfold out0_6
  rw [View.canon_unit_zero hz]
  simp only [View.ld_unit_zero (S := S512x784) hz, View.ld_unit_zero (S := S784x2048) hz, View.ld_unit_zero (S := S1x2048) hz,
    View.ld_unit_zero (S := S2048x10) hz, View.ld_unit_zero (S := S1x10) hz]

/-- Entry (p, q) of what point t computes is the read-out at batch row 512 t + p, class q. -/
theorem block_entry (c : Dev nD) (t : Fin cfg0.N) (p : Fin 512) (q : Fin 10) (r : Fin 16384)
    (hr : r.val = 512 * t.val + p.val) :
    k0_pay1 (F := Ideal) (iblk m c 0 t) (iblk m c 1 t) (iblk m c 2 t) (iblk m c 3 t) (iblk m c 4 t) (iblk m c 5 t) (ix2 p q)
      = readoutAt (basisScaled (xArr m c) (cArr m c) (lArr m c)) (wArr m c) (bArr m c) r q := by
  have h0 : ∀ k : Fin 784, (iblk m c 0 t : FVec Ideal S512x784 .f32) (ix2 p k) = xArr m c (ix2 r k) :=
    fun k => batchBlock_apply m c t p k r hr
  have h1 : ∀ (k : Fin 784) (j : Fin 2048), (iblk m c 1 t : FVec Ideal S784x2048 .bf16) (ix2 k j) = cArr m c (ix2 j k) :=
    fun k j => by rw [centresTBlock_eq, found_centresT]; exact Prep.centresT_apply (cArr m c) k j
  have h2 : ∀ j : Fin 2048, (iblk m c 2 t : FVec Ideal S1x2048 .f32) (ix2 (0 : Fin 1) j) = sqNormC (cArr m c) j :=
    fun j => by rw [centreNormsBlock_eq, found_centreNorms]; exact Prep.centreNorms_apply (cArr m c) j
  have h3 : ∀ j : Fin 2048, (iblk m c 3 t : FVec Ideal S1x2048 .f32) (ix2 (0 : Fin 1) j)
      = Ideal.exp (Ideal.ofBits .f32 0xC0000000#32 * lArr m c (ix1 j)) :=
    fun j => by rw [invWidthsBlock_eq, found_invWidths]; exact Prep.invWidths_apply (lArr m c) j
  have h4 : ∀ (j : Fin 2048) (o : Fin 10), (iblk m c 4 t : FVec Ideal S2048x10 .bf16) (ix2 j o) = wArr m c (ix2 o j) :=
    fun j o => by rw [readoutTBlock_eq, found_readoutT]; exact Prep.readoutT_apply (wArr m c) j o
  have h5 : ∀ o : Fin 10, (iblk m c 5 t : FVec Ideal S1x10 .f32) (ix2 (0 : Fin 1) o) = bArr m c (ix1 o) :=
    fun o => by rw [biasRowBlock_eq, found_biasRow]; exact Prep.biasRow_apply (bArr m c) o
  refine (Body.payload_apply (iblk m c 0 t) (iblk m c 1 t) (iblk m c 2 t) (iblk m c 3 t) (iblk m c 4 t) (iblk m c 5 t) p q).trans ?_
  unfold readoutAt basisScaled sqDist sqNormX inner
  simp only [h0, h1, h2, h3, h4, h5]

/-- WHAT POINT t WRITES BACK is block t of the result. -/
theorem flushed_eq (c : Dev nD) (t : Fin cfg0.N) :
    (dats m 0 c).flushed 6 t = ((cfg0.win 6).blk t).view.read (Elt Ideal) (result m c) := by
  obtain ⟨-, -, -, -, -, -, -, -, -, -, -, -, e0, e1⟩ := idx_facts t
  have hN : cfg0.N = 32 := N_0
  have ht : t.val < 32 := by have := t.isLt; omega
  rw [Value.flushed6, out_eq_payload]
  funext y
  obtain ⟨p, q, rfl⟩ : ∃ (p : Fin 512) (q : Fin 10), y = ix2 p q := ⟨y 0, y 1, eq_ix2 y⟩
  have hemb : ((cfg0.win 6).blk t).view.emb (ix2 p q) = ix2 (⟨512 * t.val + p.val, by omega⟩ : Fin 16384) q := by
    funext a
    apply Fin.ext
    match a with
    | ⟨0, _⟩ => show win0_6.index t 0 * 512 + 1 * p.val = 512 * t.val + p.val; rw [e0]; omega
    | ⟨1, _⟩ => show win0_6.index t 1 * 10 + 1 * q.val = q.val; rw [e1]; omega
  show k0_pay1 (F := Ideal) (iblk m c 0 t) (iblk m c 1 t) (iblk m c 2 t) (iblk m c 3 t) (iblk m c 4 t) (iblk m c 5 t) (ix2 p q)
    = result m c (((cfg0.win 6).blk t).view.emb (ix2 p q))
  rw [hemb]
  exact block_entry m c t p q _ rfl

/-! ## The blocks tile the result -/

/-- An index of the result is in point t's block iff each coordinate is in the block's range on its axis. -/
theorem mem_blk (t : Fin cfg0.N) (i : S16384x10.Idx) :
    i ∈ ((cfg0.win 6).blk t).view.set ↔ ∀ a : Fin 2, win0_6.index t a * S512x10.size a ≤ (i a).val ∧ (i a).val < win0_6.index t a * S512x10.size a + S512x10.size a := by
  show i ∈ ((View.whole main_v12).slice (win0_6.rect t)).set ↔ _
  rw [View.set_slice_whole, Rect.mem_set_unit]
  exact Iff.rfl

/-- Row r of the result lies in the block of point r / 512. -/
theorem cover (i : S16384x10.Idx) :
    ∃ t : Fin cfg0.N, (cfg0.win 6).flush t = true ∧ i ∈ ((cfg0.win 6).blk t).view.set := by
  have hi0 : (i 0).val < 16384 := (i 0).isLt
  have hi1 : (i 1).val < 10 := (i 1).isLt
  have hN : cfg0.N = 32 := N_0
  refine ⟨⟨(i 0).val / 512, by omega⟩, flush0_6 _, ?_⟩
  obtain ⟨-, -, -, -, -, -, -, -, -, -, -, -, e0, e1⟩ := idx_facts ⟨(i 0).val / 512, by omega⟩
  rw [mem_blk]
  intro a
  match a with
  | ⟨0, _⟩ =>
    show win0_6.index _ (0 : Fin 2) * 512 ≤ (i 0).val ∧ (i 0).val < win0_6.index _ (0 : Fin 2) * 512 + 512
    rw [e0]
    show (i 0).val / 512 * 512 ≤ (i 0).val ∧ (i 0).val < (i 0).val / 512 * 512 + 512
    omega
  | ⟨1, _⟩ =>
    show win0_6.index _ (1 : Fin 2) * 10 ≤ (i 1).val ∧ (i 1).val < win0_6.index _ (1 : Fin 2) * 10 + 10
    rw [e1]
    omega

/-! ## The run -/

/-- After the run the result array holds the read-out of the scaled-form basis. -/
theorem final (c : Dev nD) : (dats m 0 c).arrAt 6 cfg0.N = result m c :=
  (dats m 0 c).arrAt_eq_of_cover 6 (result m c) (fun t _ => flushed_eq m c t) cover

/-- Every weakly fair execution of the kernel's program ends with the result array at the read-out and the
    arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Rbf.Kern

end
-- ==== Proof.lean ====
/-
  A radial-basis classifier against its reference, over the extended reals.

  Both programs compute, for batch row r and class o,
      (sum over the 2048 centres c of phi r c * W o c) + b o,
  with sqDist r c = max ((|x_r|^2 + |ce_c|^2) - 2 * <x_r, ce_c>) 0 in both. They differ in how the basis value is
  spelt: the kernel multiplies the squared distance by exp (-2 * ls c), computed once on the host, and negates by
  subtracting from zero; the reference takes the square root, divides by exp (ls c), squares and negates. Sums of
  squares, matrix products and changes of float format mean the same on both sides at the extended reals, whatever
  the tiling (32 blocks of 512 rows in the kernel, one whole array in the reference).

  The two spellings agree where the squared distance is a real d >= 0 and the log-width a real l:
  sqrt d * sqrt d = d and (1 / e^l) * (1 / e^l) = e^(-2l). That is what the precondition gives: every entry of the
  batch, the centres and the log-widths is finite. The read-out matrix and the bias enter both sides alike and need
  no such fact.

  The kernel's value is read off its generated frame run block by block; the reference's off its generated run one
  operation at a time.
-/
import proofs.«122042_j23922967839460_1_alg».proof.Defs
import proofs.«122042_j23922967839460_1_alg».proof.Proof.Gen.Kernel
import proofs.«122042_j23922967839460_1_alg».proof.Proof.Gen.Kernel.Skeleton
import proofs.«122042_j23922967839460_1_alg».proof.Proof.Gen.Kernel.Launch
import proofs.«122042_j23922967839460_1_alg».proof.Proof.Gen.Kernel.Points
import proofs.«122042_j23922967839460_1_alg».proof.Proof.Gen.Kernel.Frame
import proofs.«122042_j23922967839460_1_alg».proof.Proof.Gen.KernelIdeal
import proofs.«122042_j23922967839460_1_alg».proof.Proof.Gen.KernelIdeal.Skeleton
import proofs.«122042_j23922967839460_1_alg».proof.Proof.Gen.KernelIdeal.Launch
import proofs.«122042_j23922967839460_1_alg».proof.Proof.Gen.KernelIdeal.Points
import proofs.«122042_j23922967839460_1_alg».proof.Proof.Gen.KernelIdeal.Frame
import proofs.«122042_j23922967839460_1_alg».proof.Proof.Gen.ReferenceIdeal
import proofs.«122042_j23922967839460_1_alg».proof.Proof.Gen.Pre_finite_inputs
import proofs.«122042_j23922967839460_1_alg».proof.Proof.Gen.KernelIdeal.Value
import proofs.«122042_j23922967839460_1_alg».proof.Proof.Gen.ReferenceIdeal.Run
import proofs.«122042_j23922967839460_1_alg».proof.Proof.Gen.ReferenceIdeal.Read
import proofs.«122042_j23922967839460_1_alg».proof.Proof.RbfLaw
import proofs.«122042_j23922967839460_1_alg».proof.Proof.Finite
import proofs.«122042_j23922967839460_1_alg».proof.Proof.RefValue
import proofs.«122042_j23922967839460_1_alg».proof.Proof.KernelRun
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories that agree on finite arguments, both programs end with the read-out of the scaled-form basis: the
    kernel by its run, the reference by its run, the law between the two spellings and the agreement. -/
theorem algebraic : Cert.algebraic_KernelIdeal_ReferenceIdeal := by
  intro m ρ m' ρ' hpre hagree
  refine ⟨fun c => Cert.Rbf.Kern.result m c, Cert.Rbf.Kern.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4⟩ := hagree c
  obtain ⟨hx, hc, hl⟩ := Cert.Rbf.Finite.real_of_pre _ _ _ _ _ (hpre c)
  refine (h c).1.trans ?_
  rw [Cert.ReferenceIdeal.Read.val_main_v28_eq]
  refine (Cert.Rbf.Ref.result_eq _ _ _ _ _).trans ?_
  rw [a0, a1, a2, a3, a4]
  show Cert.Rbf.readout (Cert.Rbf.basisQuot _ _ _) _ _ = Cert.Rbf.readout (Cert.Rbf.basisScaled _ _ _) _ _
  congr 1
  funext r j
  exact (Cert.Rbf.basisScaled_eq_basisQuot _ _ _ hx hc hl r j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
